-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S256x768 : Shape := ⟨2, ![256, 768]⟩
abbrev S768 : Shape := ⟨1, ![768]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S256x768 : S_.BroadcastsInDim S256x768 (![] : Fin 0 → Fin S256x768.rank)
  reducesTo_S256x768_S_d0_1 : S256x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S256x768 1) : IVec S_ 1 :=
  let main_c_5 : IVec S_ 1 := constantI S_ 1 1#1
  let main_v17 : IVec S_ 1 := (fun x v => Host.reduce IntOp.andi x v reducesTo_S256x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S16384x256 .f32) (main_arg1 : FVec F S16384x256 .f32) (main_arg2 : FVec F S256x768 .f32) (main_arg3 : FVec F S256x768 .f32) (main_arg4 : FVec F S768 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S256x768 .f32 := Host.absf main_arg2
  let main_cst_2 : FVec F S_ .f32 := constant S_ .f32 0x7F800000#32
  let main_v10 : FVec F S256x768 .f32 := broadcastInDim S256x768 ![] bcast_S_S256x768 main_cst_2
  let main_v11 : IVec S256x768 1 := cmpf .olt main_v9 main_v10
  let main_c_3 : IVec S_ 1 := constantI S_ 1 1#1
  let main_v12 : IVec S_ 1 := (fun x v => Host.reduce IntOp.andi x v reducesTo_S256x768_S_d0_1 h_S_) main_v11 main_c_3
  let main_v13 : IVec S_ 1 := andi main_v8 main_v12
  let main_v14 : FVec F S256x768 .f32 := Host.absf main_arg3
  let main_cst_4 : FVec F S_ .f32 := constant S_ .f32 0x7F800000#32
  let main_v15 : FVec F S256x768 .f32 := broadcastInDim S256x768 ![] bcast_S_S256x768 main_cst_4
  let main_v16 : IVec S256x768 1 := cmpf .olt main_v14 main_v15
  fn_part1 (F := F) main_arg4 main_v13 main_v16
-- ==== Kernel.lean ====
abbrev S16384x256 : Shape := ⟨2, ![16384, 256]⟩
abbrev S256x768 : Shape := ⟨2, ![256, 768]⟩
abbrev S768 : Shape := ⟨1, ![768]⟩
abbrev S1x768 : Shape := ⟨2, ![1, 768]⟩
abbrev S2048x256 : Shape := ⟨2, ![2048, 256]⟩
abbrev S256x512 : Shape := ⟨2, ![256, 512]⟩
abbrev S256x256 : Shape := ⟨2, ![256, 256]⟩
abbrev S1x512 : Shape := ⟨2, ![1, 512]⟩
abbrev S1x256 : Shape := ⟨2, ![1, 256]⟩
abbrev S2048x512 : Shape := ⟨2, ![2048, 512]⟩

abbrev nBuf : Space → Nat
  | .hbm => 9
  | .vmem => 9
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S256x768, .f32⟩
  | .hbm, ⟨3, _⟩ => ⟨S256x768, .f32⟩
  | .hbm, ⟨4, _⟩ => ⟨S768, .f32⟩
  | .hbm, ⟨5, _⟩ => ⟨S1x768, .f32⟩
  | .hbm, ⟨6, _⟩ => ⟨S256x768, .bf16⟩
  | .hbm, ⟨7, _⟩ => ⟨S256x768, .bf16⟩
  | .hbm, ⟨8, _⟩ => ⟨S16384x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S256x768, .bf16⟩
  | .local _ .vmem, ⟨5, _⟩ => ⟨S256x768, .bf16⟩
  | .local _ .vmem, ⟨6, _⟩ => ⟨S1x768, .f32⟩
  | .local _ .vmem, ⟨7, _⟩ => ⟨S2048x256, .f32⟩
  | .local _ .vmem, ⟨8, _⟩ => ⟨S2048x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S768_S1x768 : S768.ShapeCasts S1x768
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  inb_S256x768_S256x768_0_0 : ∀ a, (![0, 0] : Fin 2 → Nat) a + S256x768.size a ≤ S256x768.size a
  h_S256x768 : 0 < S256x768.numel
  shapeCasts_S256x768_S256x768 : S256x768.ShapeCasts S256x768
  slices_S256x768_o0_0_S256x512 : S256x768.Slices ![0, 0] S256x512
  slices_S256x768_o0_512_S256x256 : S256x768.Slices ![0, 512] S256x256
  inb_S1x768_S1x512_0_0 : ∀ a, (![0, 0] : Fin 2 → Nat) a + S1x512.size a ≤ S1x768.size a
  h_S1x512 : 0 < S1x512.numel
  shapeCasts_S1x512_S1x512 : S1x512.ShapeCasts S1x512
  inb_S1x768_S1x256_0_512 : ∀ a, (![0, 512] : Fin 2 → Nat) a + S1x256.size a ≤ S1x768.size a
  h_S1x256 : 0 < S1x256.numel
  shapeCasts_S1x256_S1x256 : S1x256.ShapeCasts S1x256
  broadcasts_S1x512_S2048x512 : S1x512.Broadcasts S2048x512
  slices_S2048x512_o0_0_S2048x256 : S2048x512.Slices ![0, 0] S2048x256
  slices_S2048x512_o0_256_S2048x256 : S2048x512.Slices ![0, 256] S2048x256
  broadcasts_S1x256_S2048x256 : S1x256.Broadcasts S2048x256
  dot_S2048x256_S256x512_S2048x512_1_0_0_1_n_n_wf : DotDims.WF S2048x256 S256x512 S2048x512 [1] [0] [0] [1] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S16384x256.size a
  hwx0_1 : ∀ i : grid0.Coords, EltTy.bits .f32 = 32 ∨ (Rect.block (s := S16384x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x768.size a ≤ S256x768.size a
  hwx0_2 : ∀ i : grid0.Coords, EltTy.bits .bf16 = 32 ∨ (Rect.block (s := S256x768) S256x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x768.size a ≤ S256x768.size a
  hwx0_3 : ∀ i : grid0.Coords, EltTy.bits .bf16 = 32 ∨ (Rect.block (s := S256x768) S256x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S16384x256.size a
  hwx0_5 : ∀ i : grid0.Coords, EltTy.bits .f32 = 32 ∨ (Rect.block (s := S16384x256) S2048x256.size (cc0_transform_5 i) (hinb0_5 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2048x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x256 : Shape := ⟨2, ![16384, 256]⟩
abbrev S256x768 : Shape := ⟨2, ![256, 768]⟩
abbrev S768 : Shape := ⟨1, ![768]⟩
abbrev S16384x768 : Shape := ⟨2, ![16384, 768]⟩
abbrev S1x768 : Shape := ⟨2, ![1, 768]⟩
abbrev S256x512 : Shape := ⟨2, ![256, 512]⟩
abbrev S16384x512 : Shape := ⟨2, ![16384, 512]⟩
abbrev S_ : Shape := ⟨0, ![]⟩
abbrev S256x256 : Shape := ⟨2, ![256, 256]⟩

abbrev nBuf : Space → Nat
  | .hbm => 45
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S256x768, .f32⟩
  | .hbm, ⟨3, _⟩ => ⟨S256x768, .f32⟩
  | .hbm, ⟨4, _⟩ => ⟨S768, .f32⟩
  | .hbm, ⟨5, _⟩ => ⟨S16384x768, .f32⟩
  | .hbm, ⟨6, _⟩ => ⟨S1x768, .f32⟩
  | .hbm, ⟨7, _⟩ => ⟨S16384x768, .f32⟩
  | .hbm, ⟨8, _⟩ => ⟨S16384x768, .f32⟩
  | .hbm, ⟨9, _⟩ => ⟨S256x512, .f32⟩
  | .hbm, ⟨10, _⟩ => ⟨S16384x512, .f32⟩
  | .hbm, ⟨11, _⟩ => ⟨S16384x256, .f32⟩
  | .hbm, ⟨12, _⟩ => ⟨S16384x256, .f32⟩
  | .hbm, ⟨13, _⟩ => ⟨S16384x256, .f32⟩
  | .hbm, ⟨14, _⟩ => ⟨S16384x256, .f32⟩
  | .hbm, ⟨15, _⟩ => ⟨S16384x256, .f32⟩
  | .hbm, ⟨16, _⟩ => ⟨S_, .f32⟩
  | .hbm, ⟨17, _⟩ => ⟨S16384x256, .f32⟩
  | .hbm, ⟨18, _⟩ => ⟨S16384x256, .f32⟩
  | .hbm, ⟨19, _⟩ => ⟨S_, .f32⟩
  | .hbm, ⟨20, _⟩ => ⟨S16384x256, .f32⟩
  | .hbm, ⟨21, _⟩ => ⟨S16384x256, .f32⟩
  | .hbm, ⟨22, _⟩ => ⟨S16384x256, .f32⟩
  | .hbm, ⟨23, _⟩ => ⟨S16384x256, .f32⟩
  | .hbm, ⟨24, _⟩ => ⟨S16384x256, .f32⟩
  | .hbm, ⟨25, _⟩ => ⟨S16384x256, .f32⟩
  | .hbm, ⟨26, _⟩ => ⟨S16384x256, .f32⟩
  | .hbm, ⟨27, _⟩ => ⟨S_, .f32⟩
  | .hbm, ⟨28, _⟩ => ⟨S16384x256, .f32⟩
  | .hbm, ⟨29, _⟩ => ⟨S16384x256, .f32⟩
  | .hbm, ⟨30, _⟩ => ⟨S_, .f32⟩
  | .hbm, ⟨31, _⟩ => ⟨S16384x256, .f32⟩
  | .hbm, ⟨32, _⟩ => ⟨S16384x256, .f32⟩
  | .hbm, ⟨33, _⟩ => ⟨S16384x256, .f32⟩
  | .hbm, ⟨34, _⟩ => ⟨S16384x256, .f32⟩
  | .hbm, ⟨35, _⟩ => ⟨S256x256, .f32⟩
  | .hbm, ⟨36, _⟩ => ⟨S16384x256, .f32⟩
  | .hbm, ⟨37, _⟩ => ⟨S16384x256, .f32⟩
  | .hbm, ⟨38, _⟩ => ⟨S16384x256, .f32⟩
  | .hbm, ⟨39, _⟩ => ⟨S16384x256, .f32⟩
  | .hbm, ⟨40, _⟩ => ⟨S_, .f32⟩
  | .hbm, ⟨41, _⟩ => ⟨S16384x256, .f32⟩
  | .hbm, ⟨42, _⟩ => ⟨S16384x256, .f32⟩
  | .hbm, ⟨43, _⟩ => ⟨S16384x256, .f32⟩
  | .hbm, ⟨44, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]

class Facts₀ : Prop where
  bcast_S768_S1x768_1 : S768.BroadcastsInDim S1x768 (![1] : Fin 1 → Fin S1x768.rank)
  bcast_S1x768_S16384x768_0_1 : S1x768.BroadcastsInDim S16384x768 (![0, 1] : Fin 2 → Fin S16384x768.rank)
  slices_S256x768_S256x512_0_0 : S256x768.Slices ![0, 0] S256x512
  slices_S16384x768_S16384x256_0_0 : S16384x768.Slices ![0, 0] S16384x256
  slices_S16384x512_S16384x256_0_0 : S16384x512.Slices ![0, 0] S16384x256
  bcast_S_S16384x256 : S_.BroadcastsInDim S16384x256 (![] : Fin 0 → Fin S16384x256.rank)
  slices_S16384x768_S16384x256_0_256 : S16384x768.Slices ![0, 256] S16384x256
  slices_S16384x512_S16384x256_0_256 : S16384x512.Slices ![0, 256] S16384x256
  slices_S16384x768_S16384x256_0_512 : S16384x768.Slices ![0, 512] S16384x256
  slices_S256x768_S256x256_0_512 : S256x768.Slices ![0, 512] S256x256
  dot_S16384x256_S256x768_S16384x768_1_0_0_1_n_n_wf : DotDims.WF S16384x256 S256x768 S16384x768 [1] [0] [0] [1] [] []
  dot_S16384x256_S256x512_S16384x512_1_0_0_1_n_n_wf : DotDims.WF S16384x256 S256x512 S16384x512 [1] [0] [0] [1] [] []
  dot_S16384x256_S256x256_S16384x256_1_0_0_1_n_n_wf : DotDims.WF S16384x256 S256x256 S16384x256 [1] [0] [0] [1] [] []

variable [Facts₀]

def dot_S16384x256_S256x768_S16384x768_1_0_0_1_n_n : DotDims S16384x256 S256x768 S16384x768 where
  lhsContracting := [1]
  rhsContracting := [0]
  lhsNonContracting := [0]
  rhsNonContracting := [1]
  lhsBatch := []
  rhsBatch := []
  wf := dot_S16384x256_S256x768_S16384x768_1_0_0_1_n_n_wf
def dot_S16384x256_S256x512_S16384x512_1_0_0_1_n_n : DotDims S16384x256 S256x512 S16384x512 where
  lhsContracting := [1]
  rhsContracting := [0]
  lhsNonContracting := [0]
  rhsNonContracting := [1]
  lhsBatch := []
  rhsBatch := []
  wf := dot_S16384x256_S256x512_S16384x512_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf

class Facts : Prop extends Facts₀ where

variable [Facts]
-- ==== Proof.GruCell.lean ====
/-
  One step of a gated recurrent unit on ONE batch row, over the extended reals.

  A row `xr` of the input and the same row `hr` of the previous hidden state (256 features each) meet two weight
  matrices `W`, `Wh` of 256 rows and 768 = 3 · 256 columns — the reset gate's columns first, then the update gate's,
  then the candidate's — and a bias `b` of 768 entries:

    reset   r_k = σ((xr · W[:, k]       + b[k])       + hr · Wh[:, k])
    update  u_q = σ((xr · W[:, 256 + q] + b[256 + q]) + hr · Wh[:, 256 + q])
    cand    c_q = tanh((xr · W[:, 512 + q] + b[512 + q]) + (r ⊙ hr) · Wh[:, 512 + q])
    new     h_q = u_q · hr_q + (1 − u_q) · c_q

  with σ x = 1 / (1 + e^(−x)). Every product `v · M[:, j]` is the plain sum over the 256 features; the sums are grouped
  as written. The new hidden state of a row depends on no other row: this is what lets a batch be cut into row blocks.
  Nothing here uses a law of arithmetic: the kernel and the reference both compute exactly this expression.
-/
import Idealize.ShloMosaic.PureOps.Ideal
import Idealize.ShloMosaic.PureOps.Ideal.Laws
import Idealize.ShloMosaic.Lib.ValueIdx

noncomputable section

namespace Cert.GruCell

open Idealize.ShloMosaic Idealize.ShloMosaic.ValueIdx
open scoped BigOperators

/-- The shape of a weight matrix: 256 features by 768 gate columns. -/
abbrev SW : Shape := ⟨2, ![256, 768]⟩
/-- The shape of the bias: one entry per gate column. -/
abbrev SB : Shape := ⟨1, ![768]⟩

/-- The float literal `1.0`, as both programs spell it. -/
def one : EReal := Ideal.ofBits .f32 0x3F800000#32

/-- It denotes the real number 1. -/
theorem one_eq : one = 1 := by
  unfold one
  simp [Ideal.ofBits, Ideal.ieee, -EReal.coe_mul]
  norm_num

/-- Column `q` of the reset gate. -/
def resetCol (q : Fin 256) : Fin 768 := ⟨q.val, by have := q.isLt; omega⟩
/-- Column `q` of the update gate. -/
def updateCol (q : Fin 256) : Fin 768 := ⟨256 + q.val, by have := q.isLt; omega⟩
/-- Column `q` of the candidate. -/
def candCol (q : Fin 256) : Fin 768 := ⟨512 + q.val, by have := q.isLt; omega⟩

/-- A row vector times column `j` of a weight matrix. -/
def proj (v : Fin 256 → EReal) (W : SW.Idx → EReal) (j : Fin 768) : EReal :=
  ∑ k : Fin 256, v k * W (ix2 k j)

/-- The gate at column `j` (a reset or an update column): the logistic function of the two projections and the bias. -/
def gate (xr hr : Fin 256 → EReal) (W Wh : SW.Idx → EReal) (b : SB.Idx → EReal) (j : Fin 768) : EReal :=
  Ideal.logistic ((proj xr W j + b (ix1 j)) + proj hr Wh j)

/-- The candidate state at feature `q`: the hidden row enters scaled by the reset gate, feature by feature. -/
def cand (xr hr : Fin 256 → EReal) (W Wh : SW.Idx → EReal) (b : SB.Idx → EReal) (q : Fin 256) : EReal :=
  Ideal.tanh ((proj xr W (candCol q) + b (ix1 (candCol q)))
    + proj (fun k => gate xr hr W Wh b (resetCol k) * hr k) Wh (candCol q))

/-- The new hidden state at feature `q`: the update gate mixes the old state and the candidate. -/
def cell (xr hr : Fin 256 → EReal) (W Wh : SW.Idx → EReal) (b : SB.Idx → EReal) (q : Fin 256) : EReal :=
  gate xr hr W Wh b (updateCol q) * hr q + (one - gate xr hr W Wh b (updateCol q)) * cand xr hr W Wh b q

/-- The shape of the input and of the hidden state: a batch of 16384 rows of 256 features. -/
abbrev SX : Shape := ⟨2, ![16384, 256]⟩

/-- The step on a whole batch: every row by itself. -/
def batch (x h : SX.Idx → EReal) (W Wh : SW.Idx → EReal) (b : SB.Idx → EReal) : SX.Idx → EReal :=
  fun i => cell (fun k => x (ix2 (i 0) k)) (fun k => h (ix2 (i 0) k)) W Wh b (i 1)

/-- The logistic function spelt out with the literal `1.0`: `1 / (1 + e^(−x))`. -/
theorem logistic_spelt (x : EReal) : Ideal.div one (one + Ideal.exp (-x)) = Ideal.logistic x := by
  rw [one_eq]; rfl

end Cert.GruCell

end
-- ==== Proof.RefCell.lean ====
/-
  The reference, read at one entry: row `r`, feature `q` of its result is the gated recurrent unit's step
  (`GruCell.cell`) on row `r` of the input and of the hidden state.

  The reference computes the three input projections at once, as one product with the whole 768-column weight matrix
  plus the bias, and takes column ranges of the result; it takes the hidden projection of the two gates as one product
  with the first 512 columns, and the candidate's with the last 256. Read at an entry, a column range of a product is the
  product with that column, so each piece is the single-column projection the cell is written with. The logistic
  function appears spelt out, `1 / (1 + e^(−x))`.
-/
import proofs.«430984_j43181601194444_3_alg».proof.Proof.Gen.ReferenceIdeal.Read
import proofs.«430984_j43181601194444_3_alg».proof.Proof.GruCell

noncomputable section

namespace Cert.ReferenceIdeal.RefCell

open Cert.ReferenceIdeal Cert.ReferenceIdeal.Read Cert.GruCell
open Idealize.ShloMosaic Idealize.ShloMosaic.ValueIdx
open scoped BigOperators

variable (x0 x1 : (⟨S16384x256, .f32⟩ : BufTy).Contents (Elt Ideal)) (x2 x3 : (⟨S256x768, .f32⟩ : BufTy).Contents (Elt Ideal))
  (x4 : (⟨S768, .f32⟩ : BufTy).Contents (Elt Ideal))

/-- Row `r` of the input. -/
abbrev xrow (r : Fin 16384) : Fin 256 → EReal := fun k => x0 (ix2 r k)
/-- Row `r` of the hidden state. -/
abbrev hrow (r : Fin 16384) : Fin 256 → EReal := fun k => x1 (ix2 r k)

/-- The input projection with its bias, at row `r` and gate column `j`. -/
theorem xwb_apply (r : Fin 16384) (j : Fin 768) :
    val_main_v3 (F := Ideal) x0 x2 x4 (ix2 r j) = proj (xrow x0 r) x2 j + x4 (ix1 j) := by
  rw [val_main_v3_apply, val_main_v0_apply, val_main_v2_apply, val_main_v1_apply]
  have e0 : ∀ k : Fin 256, lidx_main_v0 (ix2 r j) k = ix2 r k := fun k =>
    funext fun a => by match a with | ⟨0, _⟩ => rfl | ⟨1, _⟩ => rfl
  have e1 : ∀ k : Fin 256, ridx_main_v0 (ix2 r j) k = ix2 k j := fun k =>
    funext fun a => by match a with | ⟨0, _⟩ => rfl | ⟨1, _⟩ => rfl
  have e2 : idx_main_v1 (idx_main_v2 (ix2 r j)) = ix1 j :=
    funext fun a => by match a with | ⟨0, _⟩ => rfl
  simp only [e0, e1, e2, Ideal.addf_def]
  rfl

/-- The hidden projection of the two gates, at row `r` and one of the first 512 columns. -/
theorem hw_apply (r : Fin 16384) (j : Fin 512) :
    val_main_v5 (F := Ideal) x1 x3 (ix2 r j) = proj (hrow x1 r) x3 ⟨j.val, by have := j.isLt; omega⟩ := by
  rw [val_main_v5_apply]
  have e0 : ∀ k : Fin 256, lidx_main_v5 (ix2 r j) k = ix2 r k := fun k =>
    funext fun a => by match a with | ⟨0, _⟩ => rfl | ⟨1, _⟩ => rfl
  have e1 : ∀ k : Fin 256, idx_main_v4 (ridx_main_v5 (ix2 r j) k) = ix2 k (⟨j.val, by have := j.isLt; omega⟩ : Fin 768) := fun k =>
    funext fun a => by match a with | ⟨0, _⟩ => rfl | ⟨1, _⟩ => rfl
  simp only [val_main_v4_apply, e0, e1]
  rfl

/-- The reset gate at row `r`, feature `q`. -/
theorem reset_apply (r : Fin 16384) (q : Fin 256) :
    val_main_v14 (F := Ideal) x0 x1 x2 x3 x4 (ix2 r q) = gate (xrow x0 r) (hrow x1 r) x2 x3 x4 (resetCol q) := by
  rw [val_main_v14_apply, val_main_v13_apply, val_main_cst_0_apply, val_main_v12_apply, val_main_v11_apply,
    val_main_cst_apply, val_main_v10_apply, val_main_v9_apply, val_main_v8_apply, val_main_v6_apply, val_main_v7_apply]
  have e6 : idx_main_v6 (ix2 r q) = ix2 r (resetCol q) :=
    funext fun a => by match a with | ⟨0, _⟩ => rfl | ⟨1, _⟩ => rfl
  have e7 : idx_main_v7 (ix2 r q) = ix2 r (⟨q.val, by have := q.isLt; omega⟩ : Fin 512) :=
    funext fun a => by match a with | ⟨0, _⟩ => rfl | ⟨1, _⟩ => rfl
  rw [e6, e7, xwb_apply, hw_apply]
  simp only [Ideal.hostDivf_def, Ideal.addf_def, Ideal.hostUnary_exp_def, Ideal.hostNegf_def, Ideal.negf_def, Ideal.ofBits_def]
  exact logistic_spelt _

/-- The update gate at row `r`, feature `q`. -/
theorem update_apply (r : Fin 16384) (q : Fin 256) :
    val_main_v23 (F := Ideal) x0 x1 x2 x3 x4 (ix2 r q) = gate (xrow x0 r) (hrow x1 r) x2 x3 x4 (updateCol q) := by
  rw [val_main_v23_apply, val_main_v22_apply, val_main_cst_2_apply, val_main_v21_apply, val_main_v20_apply,
    val_main_cst_1_apply, val_main_v19_apply, val_main_v18_apply, val_main_v17_apply, val_main_v15_apply, val_main_v16_apply]
  have e15 : idx_main_v15 (ix2 r q) = ix2 r (updateCol q) :=
    funext fun a => by match a with | ⟨0, _⟩ => rfl | ⟨1, _⟩ => rfl
  have e16 : idx_main_v16 (ix2 r q) = ix2 r (⟨256 + q.val, by have := q.isLt; omega⟩ : Fin 512) :=
    funext fun a => by match a with | ⟨0, _⟩ => rfl | ⟨1, _⟩ => rfl
  rw [e15, e16, xwb_apply, hw_apply]
  simp only [Ideal.hostDivf_def, Ideal.addf_def, Ideal.hostUnary_exp_def, Ideal.hostNegf_def, Ideal.negf_def, Ideal.ofBits_def]
  exact logistic_spelt _

/-- The candidate at row `r`, feature `q`: the hidden row enters the last 256 columns' product scaled by the reset gate. -/
theorem cand_apply (r : Fin 16384) (q : Fin 256) :
    val_main_v29 (F := Ideal) x0 x1 x2 x3 x4 (ix2 r q) = cand (xrow x0 r) (hrow x1 r) x2 x3 x4 q := by
  rw [val_main_v29_apply, val_main_v28_apply, val_main_v24_apply, val_main_v27_apply]
  have e24 : idx_main_v24 (ix2 r q) = ix2 r (candCol q) :=
    funext fun a => by match a with | ⟨0, _⟩ => rfl | ⟨1, _⟩ => rfl
  have el : ∀ k : Fin 256, lidx_main_v27 (ix2 r q) k = ix2 r k := fun k =>
    funext fun a => by match a with | ⟨0, _⟩ => rfl | ⟨1, _⟩ => rfl
  have er : ∀ k : Fin 256, idx_main_v26 (ridx_main_v27 (ix2 r q) k) = ix2 k (candCol q) := fun k =>
    funext fun a => by match a with | ⟨0, _⟩ => rfl | ⟨1, _⟩ => rfl
  rw [e24, xwb_apply]
  simp only [el, val_main_v26_apply, er, val_main_v25_apply, reset_apply, Ideal.hostUnary_tanh_def, Ideal.addf_def, Ideal.mulf_def]
  rfl

/-- THE REFERENCE AT AN ENTRY: its result at row `r`, feature `q` is the cell's new hidden state of that row. -/
theorem result_apply (r : Fin 16384) (q : Fin 256) :
    val_main_v34 (F := Ideal) x0 x1 x2 x3 x4 (ix2 r q) = cell (xrow x0 r) (hrow x1 r) x2 x3 x4 q := by
  rw [val_main_v34_apply, val_main_v30_apply, val_main_v33_apply, val_main_v32_apply, val_main_v31_apply,
    val_main_cst_3_apply, update_apply, cand_apply]
  simp only [Ideal.addf_def, Ideal.mulf_def, Ideal.subf_def, Ideal.ofBits_def]
  rfl

/-- THE REFERENCE'S RESULT is the cell's step on the whole batch. -/
theorem result_eq : val_main_v34 (F := Ideal) x0 x1 x2 x3 x4 = batch x0 x1 x2 x3 x4 := by
  funext i
  obtain ⟨r, q, rfl⟩ : ∃ (r : Fin 16384) (q : Fin 256), i = ix2 r q := ⟨i 0, i 1, eq_ix2 i⟩
  exact result_apply x0 x1 x2 x3 x4 r q

end Cert.ReferenceIdeal.RefCell

end
-- ==== Proof.KernelCell.lean ====
/-
  The kernel's body, read at one entry of its output block: at row `p` of the block and feature `q` it stores the gated
  recurrent unit's step (`GruCell.cell`) on row `p` of the input block and of the hidden-state block.

  The body multiplies the input block by the first 512 weight columns (both gates at once) and by the last 256 (the
  candidate), each product accumulated into a zero block, so each entry is the plain sum over the 256 features; it adds the
  bias, which it loads in two pieces (columns 0–511 and 512–767) and repeats down the rows; a column range of a block
  read at an entry is the block at the shifted column. A change of float format is the identity on the extended reals.
-/
import proofs.«430984_j43181601194444_3_alg».proof.Proof.Gen.KernelIdeal.Skeleton
import proofs.«430984_j43181601194444_3_alg».proof.Proof.GruCell
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KernelCell

open Cert.KernelIdeal Cert.KernelIdeal.Gen Cert.GruCell
open Idealize.ShloMosaic Idealize.ShloMosaic.ValueIdx
open scoped BigOperators

/-! ## The two matrix products at an entry -/

theorem lhs_gates_0 (i : S2048x512.Idx) (q : dot_S2048x256_S256x512_S2048x512_1_0_0_1_n_n.contr.Idx) :
    (dot_S2048x256_S256x512_S2048x512_1_0_0_1_n_n.lhsIdx i q 0).val = (i 0).val := by
  unfold DotDims.lhsIdx
  rw [dif_neg (show ¬(0 : Fin S2048x256.rank) ∈ dot_S2048x256_S256x512_S2048x512_1_0_0_1_n_n.lhsBatch by decide), dif_pos (show (0 : Fin S2048x256.rank) ∈ dot_S2048x256_S256x512_S2048x512_1_0_0_1_n_n.lhsNonContracting by decide)]
  rfl
theorem lhs_gates_1 (i : S2048x512.Idx) (q : dot_S2048x256_S256x512_S2048x512_1_0_0_1_n_n.contr.Idx) :
    (dot_S2048x256_S256x512_S2048x512_1_0_0_1_n_n.lhsIdx i q 1).val = (q ⟨0, by decide⟩).val :=
  dot_S2048x256_S256x512_S2048x512_1_0_0_1_n_n.lhsIdx_val_of_single rfl i q
theorem rhs_gates_0 (i : S2048x512.Idx) (q : dot_S2048x256_S256x512_S2048x512_1_0_0_1_n_n.contr.Idx) :
    (dot_S2048x256_S256x512_S2048x512_1_0_0_1_n_n.rhsIdx i q 0).val = (q ⟨0, by decide⟩).val :=
  dot_S2048x256_S256x512_S2048x512_1_0_0_1_n_n.rhsIdx_val_of_single rfl i q
theorem rhs_gates_1 (i : S2048x512.Idx) (q : dot_S2048x256_S256x512_S2048x512_1_0_0_1_n_n.contr.Idx) :
    (dot_S2048x256_S256x512_S2048x512_1_0_0_1_n_n.rhsIdx i q 1).val = (i 1).val := by
  unfold DotDims.rhsIdx
  rw [dif_neg (show ¬(1 : Fin S256x512.rank) ∈ dot_S2048x256_S256x512_S2048x512_1_0_0_1_n_n.rhsBatch by decide), dif_pos (show (1 : Fin S256x512.rank) ∈ dot_S2048x256_S256x512_S2048x512_1_0_0_1_n_n.rhsNonContracting by decide)]
  rfl

theorem lhs_cand_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs_cand_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs_cand_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs_cand_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- A block of 2048 rows times 512 gate columns, into a zero block: entry `(p, j)` is row `p` of the left factor against column `j` of the right one. -/
theorem matmul_gates_apply {φ₁ φ₂ : FTy} (l : FVec Ideal S2048x256 φ₁) (w : FVec Ideal S256x512 φ₂) (p : Fin 2048) (j : Fin 512) :
    matmul dot_S2048x256_S256x512_S2048x512_1_0_0_1_n_n none l w (constant (F := Ideal) S2048x512 .f32 0x00000000#32) (ix2 p j)
      = ∑ k : Fin 256, l (ix2 p k) * w (ix2 k j) := by
  simp only [matmul]
  rw [Ideal.matmul_constant_zero_apply, ← Equiv.sum_comp (ValueIdx.contrEquiv1 dot_S2048x256_S256x512_S2048x512_1_0_0_1_n_n 256 rfl rfl).symm]
  refine Finset.sum_congr rfl fun k _ => ?_
  have hk := ValueIdx.contrEquiv1_symm_val dot_S2048x256_S256x512_S2048x512_1_0_0_1_n_n 256 rfl rfl k
  have el : dot_S2048x256_S256x512_S2048x512_1_0_0_1_n_n.lhsIdx (ix2 p j) ((ValueIdx.contrEquiv1 dot_S2048x256_S256x512_S2048x512_1_0_0_1_n_n 256 rfl rfl).symm k) = ix2 p k := funext fun a => Fin.ext (by
    match a with
    | ⟨0, _⟩ => exact lhs_gates_0 _ _
    | ⟨1, _⟩ => exact (lhs_gates_1 _ _).trans hk)
  have er : dot_S2048x256_S256x512_S2048x512_1_0_0_1_n_n.rhsIdx (ix2 p j) ((ValueIdx.contrEquiv1 dot_S2048x256_S256x512_S2048x512_1_0_0_1_n_n 256 rfl rfl).symm k) = ix2 k j := funext fun a => Fin.ext (by
    match a with
    | ⟨0, _⟩ => exact (rhs_gates_0 _ _).trans hk
    | ⟨1, _⟩ => exact rhs_gates_1 _ _)
  rw [el, er]

/-- The same for the candidate's 256 columns. -/
theorem matmul_cand_apply {φ₁ φ₂ : FTy} (l : FVec Ideal S2048x256 φ₁) (w : FVec Ideal S256x256 φ₂) (p : Fin 2048) (j : Fin 256) :
    matmul dot_S2048x256_S256x256_S2048x256_1_0_0_1_n_n none l w (constant (F := Ideal) S2048x256 .f32 0x00000000#32) (ix2 p j)
      = ∑ k : Fin 256, l (ix2 p k) * w (ix2 k j) := by
  simp only [matmul]
  rw [Ideal.matmul_constant_zero_apply, ← Equiv.sum_comp (ValueIdx.contrEquiv1 dot_S2048x256_S256x256_S2048x256_1_0_0_1_n_n 256 rfl rfl).symm]
  refine Finset.sum_congr rfl fun k _ => ?_
  have hk := ValueIdx.contrEquiv1_symm_val dot_S2048x256_S256x256_S2048x256_1_0_0_1_n_n 256 rfl rfl k
  have el : dot_S2048x256_S256x256_S2048x256_1_0_0_1_n_n.lhsIdx (ix2 p j) ((ValueIdx.contrEquiv1 dot_S2048x256_S256x256_S2048x256_1_0_0_1_n_n 256 rfl rfl).symm k) = ix2 p k := funext fun a => Fin.ext (by
    match a with
    | ⟨0, _⟩ => exact lhs_cand_0 _ _
    | ⟨1, _⟩ => exact (lhs_cand_1 _ _).trans hk)
  have er : dot_S2048x256_S256x256_S2048x256_1_0_0_1_n_n.rhsIdx (ix2 p j) ((ValueIdx.contrEquiv1 dot_S2048x256_S256x256_S2048x256_1_0_0_1_n_n 256 rfl rfl).symm k) = ix2 k j := funext fun a => Fin.ext (by
    match a with
    | ⟨0, _⟩ => exact (rhs_cand_0 _ _).trans hk
    | ⟨1, _⟩ => exact rhs_cand_1 _ _)
  rw [el, er]

/-! ## Column ranges and the bias rows at an entry -/

section Layout
variable {α : Type}

/-- The reset gate's columns are the first 256 of the 512 gate columns. -/
theorem slice_reset (X : S2048x512.Idx → α) (h : S2048x512.Slices ![0, 0] S2048x256) (p : Fin 2048) (q : Fin 256) :
    extractStridedSlice S2048x256 ![0, 0] X h (ix2 p q) = X (ix2 p (⟨q.val, by have := q.isLt; omega⟩ : Fin 512)) :=
  slice2_axis1_apply 0 X h p q _ (Nat.zero_add _).symm

/-- The update gate's columns are the last 256 of the 512 gate columns. -/
theorem slice_update (X : S2048x512.Idx → α) (h : S2048x512.Slices ![0, 256] S2048x256) (p : Fin 2048) (q : Fin 256) :
    extractStridedSlice S2048x256 ![0, 256] X h (ix2 p q) = X (ix2 p (⟨256 + q.val, by have := q.isLt; omega⟩ : Fin 512)) :=
  slice2_axis1_apply 256 X h p q _ rfl

/-- The gates' weight columns are the first 512 of the 768. -/
theorem wslice_gates (X : S256x768.Idx → α) (h : S256x768.Slices ![0, 0] S256x512) (k : Fin 256) (j : Fin 512) :
    extractStridedSlice S256x512 ![0, 0] X h (ix2 k j) = X (ix2 k (⟨j.val, by have := j.isLt; omega⟩ : Fin 768)) :=
  slice2_axis1_apply 0 X h k j _ (Nat.zero_add _).symm

/-- The candidate's weight columns are the last 256 of the 768. -/
theorem wslice_cand (X : S256x768.Idx → α) (h : S256x768.Slices ![0, 512] S256x256) (k : Fin 256) (q : Fin 256) :
    extractStridedSlice S256x256 ![0, 512] X h (ix2 k q) = X (ix2 k (candCol q)) :=
  slice2_axis1_apply 512 X h k q _ rfl

/-- The gates' bias piece, one row of 512, repeated down the block's rows. -/
theorem bias_gates (v : S1x512.Idx → α) (h : S1x512.Broadcasts S2048x512) (p : Fin 2048) (j : Fin 512) :
    broadcastTo S2048x512 v h (ix2 p j) = v (ix2 (0 : Fin 1) j) :=
  broadcastTo_1b_ab_apply v h p j

/-- The candidate's bias piece, one row of 256, repeated down the block's rows. -/
theorem bias_cand (v : S1x256.Idx → α) (h : S1x256.Broadcasts S2048x256) (p : Fin 2048) (q : Fin 256) :
    broadcastTo S2048x256 v h (ix2 p q) = v (ix2 (0 : Fin 1) q) :=
  broadcastTo_1b_ab_apply v h p q

end Layout

/-- The logistic function and the hyperbolic tangent act entry by entry. -/
theorem logistic_apply {s : Shape} {φ : FTy} (x : FVec Ideal s φ) (i : s.Idx) : logistic x i = Ideal.logistic (x i) := rfl
theorem tanh_apply {s : Shape} {φ : FTy} (x : FVec Ideal s φ) (i : s.Idx) : tanh x i = Ideal.tanh (x i) := rfl

/-! ## The body's stored value at an entry -/

/-- THE BODY AT AN ENTRY. With `v0`, `v2` the input and hidden-state blocks, `v4`, `v6` the two weight matrices and
    `v12`, `v14` the two bias pieces — pieces of one bias `b`, columns 0–511 and 512–767 — the stored block at row `p`,
    feature `q` is the cell's new hidden state of row `p`. -/
theorem pay_apply (v0 v2 : FVec Ideal S2048x256 .f32) (v4 v6 : FVec Ideal S256x768 .bf16)
    (v12 : FVec Ideal S1x512 .f32) (v14 : FVec Ideal S1x256 .f32) (b : SB.Idx → EReal)
    (hb12 : ∀ j : Fin 512, v12 (ix2 (0 : Fin 1) j) = b (ix1 (⟨j.val, by have := j.isLt; omega⟩ : Fin 768)))
    (hb14 : ∀ q : Fin 256, v14 (ix2 (0 : Fin 1) q) = b (ix1 (candCol q)))
    (p : Fin 2048) (q : Fin 256) :
    k0_pay1 (F := Ideal) v0 v2 v4 v6 v12 v14 (ix2 p q)
      = cell (fun k => v0 (ix2 p k)) (fun k => v2 (ix2 p k)) v4 v6 b q := by
  unfold k0_pay1
  simp only [addf_apply, mulf_apply, subf_apply, logistic_apply, tanh_apply, broadcast_apply, slice_reset, slice_update,
    bias_gates, bias_cand, matmul_gates_apply, matmul_cand_apply, truncf_apply, wslice_gates, wslice_cand, shapeCast_self,
    hb12, hb14]
  rfl

end Cert.KernelIdeal.KernelCell

end
-- ==== Proof.KernelArray.lean ====
/-
  From blocks to the whole array: after the kernel's run its output array holds the gated recurrent unit's step on the
  whole batch (`GruCell.batch`) of the five argument arrays.

  The grid has 8 points; point `t` is given rows `2048·t … 2048·t + 2047` of the input and of the hidden state, the two
  weight matrices and the bias whole, and writes back rows `2048·t … 2048·t + 2047` of the output. Before the call the
  weights change float format (the identity on the extended reals) and the bias of 768 entries is laid out as one row.
  Since the step treats every row by itself, the block point `t` writes is that row range of the whole-batch result;
  the 8 row ranges tile the 16384 rows, so the array ends as the whole-batch result.
-/
import proofs.«430984_j43181601194444_3_alg».proof.Proof.Gen.KernelIdeal.Value
import proofs.«430984_j43181601194444_3_alg».proof.Proof.KernelCell
import Idealize.ShloMosaic.Lib.StableHlo.Run

noncomputable section

namespace Cert.KernelIdeal.KernelArray

open Cert.KernelIdeal Cert.KernelIdeal.Gen Cert.KernelIdeal.KernelCell Cert.GruCell
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The argument arrays, and the arrays the call is given -/

/-- The input, the hidden state, the two weight matrices and the bias, as launched. -/
abbrev xarr (c : Dev nD) : FVec Ideal S16384x256 .f32 := m ((c : Thread nD τ).loc main_arg0)
abbrev harr (c : Dev nD) : FVec Ideal S16384x256 .f32 := m ((c : Thread nD τ).loc main_arg1)
abbrev warr (c : Dev nD) : FVec Ideal S256x768 .f32 := m ((c : Thread nD τ).loc main_arg2)
abbrev wharr (c : Dev nD) : FVec Ideal S256x768 .f32 := m ((c : Thread nD τ).loc main_arg3)
abbrev barr (c : Dev nD) : FVec Ideal S768 .f32 := m ((c : Thread nD τ).loc main_arg4)

/-- The input weights in the narrower format are the input weights. -/
theorem V_main_v1 (c : Dev nD) : (V m c main_v1 : S256x768.Idx → EReal) = warr m c := by
  dsimp only [Gen.V, Gen.hostOps0]; after_results; rfl

/-- The hidden weights in the narrower format are the hidden weights. -/
theorem V_main_v2 (c : Dev nD) : (V m c main_v2 : S256x768.Idx → EReal) = wharr m c := by
  dsimp only [Gen.V, Gen.hostOps0]; after_results; rfl

/-- The bias laid out as one row of 768. -/
theorem V_main_v0 (c : Dev nD) : (V m c main_v0 : S1x768.Idx → EReal) = shapeCast S1x768 (barr m c) shapeCasts_S768_S1x768 := by
  dsimp only [Gen.V, Gen.hostOps0]; after_results; rfl

/-! ## Where each block lies -/

/-- The index maps over the 8 grid points: the input, the hidden state and the output move one row block per point;
    the weights and the bias stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 8 := lt_of_lt_of_eq t.isLt N_0

/-- Row `p` of point `t`'s block is row `2048·t + p` of the batch. -/
def rowOf (t : Fin cfg0.N) (p : Fin 2048) : Fin 16384 :=
  ⟨t.val * 2048 + p.val, by have := t_lt t; have := p.isLt; omega⟩

/-- The blocks point `t` is given, each at its literal type. -/
abbrev xblk (c : Dev nD) (t : Fin cfg0.N) : FVec Ideal S2048x256 .f32 := iblk m c 0 t
abbrev hblk (c : Dev nD) (t : Fin cfg0.N) : FVec Ideal S2048x256 .f32 := iblk m c 1 t
abbrev wblk (c : Dev nD) (t : Fin cfg0.N) : FVec Ideal S256x768 .bf16 := iblk m c 2 t
abbrev whblk (c : Dev nD) (t : Fin cfg0.N) : FVec Ideal S256x768 .bf16 := iblk m c 3 t
abbrev bblk (c : Dev nD) (t : Fin cfg0.N) : FVec Ideal S1x768 .f32 := iblk m c 4 t

/-- The input block's row `p` is the batch's row `2048·t + p`. -/
theorem xblk_apply (c : Dev nD) (t : Fin cfg0.N) (p : Fin 2048) (k : Fin 256) :
    xblk m c t (ix2 p k) = xarr m c (ix2 (rowOf t p) k) := by
  obtain ⟨e0, e1, -⟩ := idx_facts t
  show V m c main_arg0 (((cfg0.win 0).blk t).view.emb (ix2 p k)) = _
  rw [V_main_arg0]
  refine congrArg (xarr m c) (funext fun a => Fin.ext ?_)
  match a with
  | ⟨0, _⟩ => show win0_0.index t (0 : Fin 2) * 2048 + 1 * p.val = t.val * 2048 + p.val; omega
  | ⟨1, _⟩ => show win0_0.index t (1 : Fin 2) * 256 + 1 * k.val = k.val; omega

/-- The hidden-state block's row `p` is the batch's row `2048·t + p`. -/
theorem hblk_apply (c : Dev nD) (t : Fin cfg0.N) (p : Fin 2048) (k : Fin 256) :
    hblk m c t (ix2 p k) = harr m c (ix2 (rowOf t p) k) := by
  obtain ⟨-, -, e0, e1, -⟩ := idx_facts t
  show V m c main_arg1 (((cfg0.win 1).blk t).view.emb (ix2 p k)) = _
  rw [V_main_arg1]
  refine congrArg (harr m c) (funext fun a => Fin.ext ?_)
  match a with
  | ⟨0, _⟩ => show win0_1.index t (0 : Fin 2) * 2048 + 1 * p.val = t.val * 2048 + p.val; omega
  | ⟨1, _⟩ => show win0_1.index t (1 : Fin 2) * 256 + 1 * k.val = k.val; omega

/-- Every point is given the input weights whole. -/
theorem wblk_eq (c : Dev nD) (t : Fin cfg0.N) : wblk m c t = warr m c := by
  obtain ⟨-, -, -, -, e0, e1, -⟩ := idx_facts t
  funext i
  show V m c main_v1 (((cfg0.win 2).blk t).view.emb i) = _
  rw [V_main_v1]
  refine congrArg (warr m c) (funext fun a => Fin.ext ?_)
  match a with
  | ⟨0, _⟩ => show win0_2.index t (0 : Fin 2) * 256 + 1 * (i 0).val = (i 0).val; omega
  | ⟨1, _⟩ => show win0_2.index t (1 : Fin 2) * 768 + 1 * (i 1).val = (i 1).val; omega

/-- Every point is given the hidden weights whole. -/
theorem whblk_eq (c : Dev nD) (t : Fin cfg0.N) : whblk m c t = wharr m c := by
  obtain ⟨-, -, -, -, -, -, e0, e1, -⟩ := idx_facts t
  funext i
  show V m c main_v2 (((cfg0.win 3).blk t).view.emb i) = _
  rw [V_main_v2]
  refine congrArg (wharr m c) (funext fun a => Fin.ext ?_)
  match a with
  | ⟨0, _⟩ => show win0_3.index t (0 : Fin 2) * 256 + 1 * (i 0).val = (i 0).val; omega
  | ⟨1, _⟩ => show win0_3.index t (1 : Fin 2) * 768 + 1 * (i 1).val = (i 1).val; omega

/-- Every point is given the bias whole, as one row: entry `j` of that row is the bias's entry `j`. -/
theorem bblk_apply (c : Dev nD) (t : Fin cfg0.N) (j : Fin 768) :
    bblk m c t (ix2 (0 : Fin 1) j) = barr m c (ix1 j) := by
  obtain ⟨-, -, -, -, -, -, -, -, e0, e1, -⟩ := idx_facts t
  show V m c main_v0 (((cfg0.win 4).blk t).view.emb (ix2 (0 : Fin 1) j)) = _
  rw [V_main_v0]
  refine Eq.trans (congrArg (shapeCast S1x768 (barr m c) shapeCasts_S768_S1x768) (?_ : _ = ix2 (0 : Fin 1) j))
    (shapeCast_a_1a_apply (barr m c) shapeCasts_S768_S1x768 (0 : Fin 1) j)
  funext a; apply Fin.ext
  match a with
  | ⟨0, _⟩ => show win0_4.index t (0 : Fin 2) * 1 + 1 * 0 = 0; omega
  | ⟨1, _⟩ => show win0_4.index t (1 : Fin 2) * 768 + 1 * j.val = j.val; omega

/-- The body's first bias load, columns 0–511 of the row. -/
theorem bias_lo (c : Dev nD) (t : Fin cfg0.N) (j : Fin 512) :
    View.ld (Val := Elt Ideal) (e' := EltTy.f32) (bblk m c t) r0_2 (ix2 (0 : Fin 1) j) = barr m c (ix1 (⟨j.val, by have := j.isLt; omega⟩ : Fin 768)) := by
  refine Eq.trans (congrArg (bblk m c t) (?_ : _ = ix2 (0 : Fin 1) (⟨j.val, by have := j.isLt; omega⟩ : Fin 768))) (bblk_apply m c t _)
  funext a; apply Fin.ext
  match a with
  | ⟨0, _⟩ => show 0 + 1 * 0 = 0; omega
  | ⟨1, _⟩ => show 0 + 1 * j.val = j.val; omega

/-- The body's second bias load, columns 512–767 of the row. -/
theorem bias_hi (c : Dev nD) (t : Fin cfg0.N) (q : Fin 256) :
    View.ld (Val := Elt Ideal) (e' := EltTy.f32) (bblk m c t) r0_3 (ix2 (0 : Fin 1) q) = barr m c (ix1 (candCol q)) := by
  refine Eq.trans (congrArg (bblk m c t) (?_ : _ = ix2 (0 : Fin 1) (candCol q))) (bblk_apply m c t _)
  funext a; apply Fin.ext
  match a with
  | ⟨0, _⟩ => show 0 + 1 * 0 = 0; omega
  | ⟨1, _⟩ => show 512 + 1 * q.val = 512 + q.val; omega

/-! ## What a grid point writes back -/

/-- The whole-batch result of the five argument arrays. -/
abbrev newState (c : Dev nD) : S16384x256.Idx → EReal :=
  batch (xarr m c) (harr m c) (warr m c) (wharr m c) (barr m c)

/-- The body's stored block at point `t`, row `p`, feature `q` is the whole-batch result at row `2048·t + p`. -/
theorem pay_block (c : Dev nD) (t : Fin cfg0.N) (p : Fin 2048) (q : Fin 256) :
    k0_pay1 (F := Ideal) (xblk m c t) (hblk m c t) (wblk m c t) (whblk m c t)
        (View.ld (Val := Elt Ideal) (e' := EltTy.f32) (bblk m c t) r0_2)
        (View.ld (Val := Elt Ideal) (e' := EltTy.f32) (bblk m c t) r0_3) (ix2 p q)
      = newState m c (ix2 (rowOf t p) q) := by
  rw [pay_apply (xblk m c t) (hblk m c t) (wblk m c t) (whblk m c t) _ _ (barr m c)
    (bias_lo m c t) (bias_hi m c t) p q, wblk_eq, whblk_eq]
  simp only [xblk_apply, hblk_apply]
  rfl

theorem hz : (![0, 0] : Fin 2 → Nat) = fun _ => 0 := funext fun a => by fin_cases a <;> rfl

/-- WHAT POINT `t` WRITES BACK is its row range of the whole-batch result. -/
theorem flushed_eq (c : Dev nD) (t : Fin cfg0.N) :
    (dats m 0 c).flushed 5 t = ((cfg0.win 5).blk t).view.read (Elt Ideal) (newState m c) := by
  rw [Value.flushed5]
  unfold out0_5
  rw [View.canon_unit_zero hz]
  simp only [View.ld_unit_zero (S := S2048x256) hz, View.ld_unit_zero (S := S256x768) hz]
  obtain ⟨-, -, -, -, -, -, -, -, -, -, e0, e1⟩ := idx_facts t
  funext y
  refine (congrArg _ (eq_ix2 y)).trans ((pay_block m c t (y 0) (y 1)).trans ?_)
  show newState m c (ix2 (rowOf t (y 0)) (y 1)) = newState m c (((cfg0.win 5).blk t).view.emb y)
  refine congrArg (newState m c) (funext fun a => Fin.ext ?_)
  match a with
  | ⟨0, _⟩ => show t.val * 2048 + (y 0).val = win0_5.index t (0 : Fin 2) * 2048 + 1 * (y 0).val; omega
  | ⟨1, _⟩ => show (y 1).val = win0_5.index t (1 : Fin 2) * 256 + 1 * (y 1).val; omega

/-! ## The row ranges tile the batch -/

/-- An index is in point `t`'s block iff each coordinate is in the block's range. -/
theorem mem_blk (t : Fin cfg0.N) (i : S16384x256.Idx) :
    i ∈ ((cfg0.win 5).blk t).view.set ↔ ∀ a : Fin 2, win0_5.index t a * S2048x256.size a ≤ (i a).val ∧ (i a).val < win0_5.index t a * S2048x256.size a + S2048x256.size a := by
  show i ∈ ((View.whole main_v3).slice (win0_5.rect t)).set ↔ _
  rw [View.set_slice_whole, Rect.mem_set_unit]
  exact Iff.rfl

/-- Row `r` lies in the block of point `r / 2048`. -/
theorem cover (i : S16384x256.Idx) :
    ∃ t : Fin cfg0.N, (cfg0.win 5).flush t = true ∧ i ∈ ((cfg0.win 5).blk t).view.set := by
  have hi0 : (i 0).val < 16384 := (i 0).isLt
  have hi1 : (i 1).val < 256 := (i 1).isLt
  have hN : cfg0.N = 8 := N_0
  refine ⟨⟨(i 0).val / 2048, by rw [hN]; omega⟩, flush0_5 _, ?_⟩
  obtain ⟨-, -, -, -, -, -, -, -, -, -, e0, e1⟩ := idx_facts ⟨(i 0).val / 2048, by rw [hN]; omega⟩
  rw [mem_blk]
  intro a
  match a with
  | ⟨0, _⟩ =>
    show win0_5.index ⟨(i 0).val / 2048, _⟩ (0 : Fin 2) * 2048 ≤ (i 0).val ∧ (i 0).val < win0_5.index ⟨(i 0).val / 2048, _⟩ (0 : Fin 2) * 2048 + 2048
    rw [e0]; show (i 0).val / 2048 * 2048 ≤ (i 0).val ∧ (i 0).val < (i 0).val / 2048 * 2048 + 2048; omega
  | ⟨1, _⟩ =>
    show win0_5.index ⟨(i 0).val / 2048, _⟩ (1 : Fin 2) * 256 ≤ (i 1).val ∧ (i 1).val < win0_5.index ⟨(i 0).val / 2048, _⟩ (1 : Fin 2) * 256 + 256
    rw [e1]; omega

/-! ## The array after the run -/

/-- THE OUTPUT ARRAY after the run is the whole-batch result. -/
theorem final (c : Dev nD) : (dats m 0 c).arrAt 5 cfg0.N = newState m c :=
  (dats m 0 c).arrAt_eq_of_cover 5 (newState m c) (fun t _ => flushed_eq m c t) cover

/-- THE KERNEL'S RUN: it ends with the output array at the whole-batch result and the arguments as launched. -/
theorem run : θ_run defs (onTc (τ := τ) (main (F := Ideal))) ⟨m, fun _ => 0, ρ⟩ fun r => ∀ c : Dev nD,
      r.2.mem ((c : Thread nD τ).loc main_v3) = newState m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.KernelArray

end
-- ==== Proof.lean ====
/-
  A gated recurrent unit's step on a batch of 16384 rows of 256 features, computed by a kernel over 8 blocks of 2048 rows,
  equals its plain reference over the extended reals.

  Both programs compute, for every row of the batch by itself, the reset and update gates as the logistic function of the
  input's and the hidden state's projections plus a bias, the candidate as the hyperbolic tangent of the input's projection
  plus the bias plus the projection of the reset-scaled hidden row, and the new hidden state as the update gate's mix of
  the old state and the candidate (Proof/GruCell.lean). The kernel cuts the batch into row blocks, splits the weight
  columns into the gates' 512 and the candidate's 256 before multiplying, loads the bias in two pieces, and passes the
  operands of its products through a narrower float format; the reference multiplies by all 768 input-weight columns at once
  and takes column ranges afterwards, and spells the logistic function out as `1 / (1 + e^(−x))`. Over the extended reals a
  change of format is the identity, a product accumulated into zero is the plain sum, a column range of a product read at an
  entry is the product with that column, and the logistic function is that quotient by definition: the two sides are the same
  expression, sums grouped alike, so no law of arithmetic and no finiteness of the inputs is used.

  Proof/RefCell.lean reads the reference's last stage at an entry; Proof/KernelCell.lean reads the kernel body's stored block
  at an entry; Proof/KernelArray.lean places each block in the batch and shows the 8 row ranges tile it. Here the five
  claims are assembled: the kernels' frames are the generated ones, the reference's frame is its generated run with the
  result dropped, the idealization rewrote nothing, and the two runs end at one and the same whole-batch function of
  arguments that agree.
-/
import proofs.«430984_j43181601194444_3_alg».proof.Defs
import proofs.«430984_j43181601194444_3_alg».proof.Proof.Gen.Kernel
import proofs.«430984_j43181601194444_3_alg».proof.Proof.Gen.Kernel.Skeleton
import proofs.«430984_j43181601194444_3_alg».proof.Proof.Gen.Kernel.Launch
import proofs.«430984_j43181601194444_3_alg».proof.Proof.Gen.Kernel.Points
import proofs.«430984_j43181601194444_3_alg».proof.Proof.Gen.Kernel.Frame
import proofs.«430984_j43181601194444_3_alg».proof.Proof.Gen.KernelIdeal
import proofs.«430984_j43181601194444_3_alg».proof.Proof.Gen.KernelIdeal.Skeleton
import proofs.«430984_j43181601194444_3_alg».proof.Proof.Gen.KernelIdeal.Launch
import proofs.«430984_j43181601194444_3_alg».proof.Proof.Gen.KernelIdeal.Points
import proofs.«430984_j43181601194444_3_alg».proof.Proof.Gen.KernelIdeal.Frame
import proofs.«430984_j43181601194444_3_alg».proof.Proof.Gen.ReferenceIdeal
import proofs.«430984_j43181601194444_3_alg».proof.Proof.Gen.Pre_finite_inputs
import proofs.«430984_j43181601194444_3_alg».proof.Proof.Gen.KernelIdeal.Value
import proofs.«430984_j43181601194444_3_alg».proof.Proof.Gen.ReferenceIdeal.Run
import proofs.«430984_j43181601194444_3_alg».proof.Proof.Gen.ReferenceIdeal.Read
import proofs.«430984_j43181601194444_3_alg».proof.Proof.GruCell
import proofs.«430984_j43181601194444_3_alg».proof.Proof.RefCell
import proofs.«430984_j43181601194444_3_alg».proof.Proof.KernelCell
import proofs.«430984_j43181601194444_3_alg».proof.Proof.KernelArray
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as launched: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel's output array and the reference's result both end at the step on the whole
    batch: the kernel's by its blocks (Proof/KernelArray.lean), the reference's entry by entry (Proof/RefCell.lean). -/
theorem algebraic : Cert.algebraic_KernelIdeal_ReferenceIdeal := by
  intro m ρ m' ρ' _ hagree
  refine ⟨fun c => Cert.KernelIdeal.KernelArray.newState m c, Cert.KernelIdeal.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.RefCell.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
